-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x200x128 : Shape := ⟨3, ![4, 200, 128]⟩
abbrev S4x200x200x3 : Shape := ⟨4, ![4, 200, 200, 3]⟩
abbrev S256x128 : Shape := ⟨2, ![256, 128]⟩
abbrev S128 : Shape := ⟨1, ![128]⟩
abbrev S_ : Shape := ⟨0, ![]⟩

class Facts : Prop where
  bcast_S_S4x200x128 : S_.BroadcastsInDim S4x200x128 (![] : Fin 0 → Fin S4x200x128.rank)
  reducesTo_S4x200x128_S_d0_1_2 : S4x200x128.ReducesTo [0, 1, 2] S_
  h_S_ : 0 < S_.numel
  bcast_S_S4x200x200x3 : S_.BroadcastsInDim S4x200x200x3 (![] : Fin 0 → Fin S4x200x200x3.rank)
  reducesTo_S4x200x200x3_S_d0_1_2_3 : S4x200x200x3.ReducesTo [0, 1, 2, 3] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4x200x128 .f32) (main_arg1 : FVec F S4x200x200x3 .f32) (main_arg2 : FVec F S256x128 .f32) (main_arg3 : FVec F S128 .f32) : IVec S_ 1 :=
  let main_v0 : FVec F S4x200x128 .f32 := Host.absf main_arg0
  let main_cst : FVec F S_ .f32 := constant S_ .f32 0x7F800000#32
  let main_v1 : FVec F S4x200x128 .f32 := broadcastInDim S4x200x128 ![] bcast_S_S4x200x128 main_cst
  let main_v2 : IVec S4x200x128 1 := cmpf .olt main_v0 main_v1
  let main_c : IVec S_ 1 := constantI S_ 1 1#1
  let main_v3 : IVec S_ 1 := (fun x v => Host.reduce IntOp.andi x v reducesTo_S4x200x128_S_d0_1_2 h_S_) main_v2 main_c
  let main_v4 : FVec F S4x200x200x3 .f32 := Host.absf main_arg1
  let main_cst_0 : FVec F S_ .f32 := constant S_ .f32 0x7F800000#32
  let main_v5 : FVec F S4x200x200x3 .f32 := broadcastInDim S4x200x200x3 ![] bcast_S_S4x200x200x3 main_cst_0
  let main_v6 : IVec S4x200x200x3 1 := cmpf .olt main_v4 main_v5
  let main_c_1 : IVec S_ 1 := constantI S_ 1 1#1
  let main_v7 : IVec S_ 1 := (fun x v => Host.reduce IntOp.andi x v reducesTo_S4x200x200x3_S_d0_1_2_3 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4x200x128 : Shape := ⟨3, ![4, 200, 128]⟩
abbrev S4x200x200x3 : Shape := ⟨4, ![4, 200, 200, 3]⟩
abbrev S256x128 : Shape := ⟨2, ![256, 128]⟩
abbrev S128 : Shape := ⟨1, ![128]⟩
abbrev S1x128 : Shape := ⟨2, ![1, 128]⟩
abbrev S4x200x200x3x128 : Shape := ⟨5, ![4, 200, 200, 3, 128]⟩
abbrev S1x40x128 : Shape := ⟨3, ![1, 40, 128]⟩
abbrev S1x40x40x3 : Shape := ⟨4, ![1, 40, 40, 3]⟩
abbrev S1x40x40x3x128 : Shape := ⟨5, ![1, 40, 40, 3, 128]⟩
abbrev S40x128 : Shape := ⟨2, ![40, 128]⟩
abbrev S128x128 : Shape := ⟨2, ![128, 128]⟩
abbrev S40x1x128 : Shape := ⟨3, ![40, 1, 128]⟩
abbrev S40x40x128 : Shape := ⟨3, ![40, 40, 128]⟩
abbrev S1x1x128 : Shape := ⟨3, ![1, 1, 128]⟩
abbrev S40x40x3 : Shape := ⟨3, ![40, 40, 3]⟩
abbrev S40x40x1x128 : Shape := ⟨4, ![40, 40, 1, 128]⟩
abbrev S40x40x3x1 : Shape := ⟨4, ![40, 40, 3, 1]⟩
abbrev S40x40x3x128 : Shape := ⟨4, ![40, 40, 3, 128]⟩

abbrev nBuf : Space → Nat
  | .hbm => 6
  | .vmem => 10
  | .smem => 0
  | _ => 0

abbrev bufTy : (tb : Table) → Fin (tcTables nBuf tb) → BufTy
  | .hbm, ⟨0, _⟩ => ⟨S4x200x128, .f32⟩
  | .hbm, ⟨1, _⟩ => ⟨S4x200x200x3, .f32⟩
  | .hbm, ⟨2, _⟩ => ⟨S256x128, .f32⟩
  | .hbm, ⟨3, _⟩ => ⟨S128, .f32⟩
  | .hbm, ⟨4, _⟩ => ⟨S1x128, .f32⟩
  | .hbm, ⟨5, _⟩ => ⟨S4x200x200x3x128, .f32⟩
  | .local _ .vmem, ⟨0, _⟩ => ⟨S1x40x128, .f32⟩
  | .local _ .vmem, ⟨1, _⟩ => ⟨S1x40x128, .f32⟩
  | .local _ .vmem, ⟨2, _⟩ => ⟨S1x40x128, .f32⟩
  | .local _ .vmem, ⟨3, _⟩ => ⟨S1x40x128, .f32⟩
  | .local _ .vmem, ⟨4, _⟩ => ⟨S1x40x40x3, .f32⟩
  | .local _ .vmem, ⟨5, _⟩ => ⟨S1x40x40x3, .f32⟩
  | .local _ .vmem, ⟨6, _⟩ => ⟨S256x128, .f32⟩
  | .local _ .vmem, ⟨7, _⟩ => ⟨S1x128, .f32⟩
  | .local _ .vmem, ⟨8, _⟩ => ⟨S1x40x40x3x128, .f32⟩
  | .local _ .vmem, ⟨9, _⟩ => ⟨S1x40x40x3x128, .f32⟩
  | _, _ => ⟨S4x200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 5, 5], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x40x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x40x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x40x40x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x40x40x3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  shapeCasts_S128_S1x128 : S128.ShapeCasts S1x128
  inb_S1x40x128_S1x40x128_0_0_0 : ∀ a, (![0, 0, 0] : Fin 3 → Nat) a + S1x40x128.size a ≤ S1x40x128.size a
  h_S1x40x128 : 0 < S1x40x128.numel
  shapeCasts_S1x40x128_S40x128 : S1x40x128.ShapeCasts S40x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  slices_S256x128_o0_0_S128x128 : S256x128.Slices ![0, 0] S128x128
  slices_S256x128_o128_0_S128x128 : S256x128.Slices ![128, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S40x128_S40x1x128 : S40x128.ShapeCasts S40x1x128
  shapeCasts_S40x128_S1x40x128 : S40x128.ShapeCasts S1x40x128
  broadcasts_S40x1x128_S40x40x128 : S40x1x128.Broadcasts S40x40x128
  broadcasts_S1x40x128_S40x40x128 : S1x40x128.Broadcasts S40x40x128
  shapeCasts_S1x128_S128 : S1x128.ShapeCasts S128
  shapeCasts_S128_S1x1x128 : S128.ShapeCasts S1x1x128
  broadcasts_S1x1x128_S40x40x128 : S1x1x128.Broadcasts S40x40x128
  inb_S1x40x40x3_S1x40x40x3_0_0_0_0 : ∀ a, (![0, 0, 0, 0] : Fin 4 → Nat) a + S1x40x40x3.size a ≤ S1x40x40x3.size a
  h_S1x40x40x3 : 0 < S1x40x40x3.numel
  shapeCasts_S1x40x40x3_S40x40x3 : S1x40x40x3.ShapeCasts S40x40x3
  shapeCasts_S40x40x128_S40x40x1x128 : S40x40x128.ShapeCasts S40x40x1x128
  shapeCasts_S40x40x3_S40x40x3x1 : S40x40x3.ShapeCasts S40x40x3x1
  broadcasts_S40x40x1x128_S40x40x3x128 : S40x40x1x128.Broadcasts S40x40x3x128
  broadcasts_S40x40x3x1_S40x40x3x128 : S40x40x3x1.Broadcasts S40x40x3x128
  inb_S1x40x40x3x128_S1x40x40x3x128_0_0_0_0_0 : ∀ a, (![0, 0, 0, 0, 0] : Fin 5 → Nat) a + S1x40x40x3x128.size a ≤ S1x40x40x3x128.size a
  h_S1x40x40x3x128 : 0 < S1x40x40x3x128.numel
  shapeCasts_S1x40x40x3x128_S40x40x3x128 : S1x40x40x3x128.ShapeCasts S40x40x3x128
  shapeCasts_S40x40x3x128_S1x40x40x3x128 : S40x40x3x128.ShapeCasts S1x40x40x3x128
  dot_S40x128_S128x128_S40x128_1_0_0_1_n_n_wf : DotDims.WF S40x128 S128x128 S40x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x40x128.size a ≤ S4x200x128.size a
  hwx0_0 : ∀ i : grid0.Coords, EltTy.bits .f32 = 32 ∨ (Rect.block (s := S4x200x128) S1x40x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x40x128.size a ≤ S4x200x128.size a
  hwx0_1 : ∀ i : grid0.Coords, EltTy.bits .f32 = 32 ∨ (Rect.block (s := S4x200x128) S1x40x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x40x40x3.size a ≤ S4x200x200x3.size a
  hwx0_2 : ∀ i : grid0.Coords, EltTy.bits .f32 = 32 ∨ (Rect.block (s := S4x200x200x3) S1x40x40x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x40x40x3x128.size a ≤ S4x200x200x3x128.size a
  hwx0_5 : ∀ i : grid0.Coords, EltTy.bits .f32 = 32 ∨ (Rect.block (s := S4x200x200x3x128) S1x40x40x3x128.size (cc0_transform_5 i) (hinb0_5 i)).WholeWords (EltTy.packing .f32)

variable [Facts₀]

def dot_S40x128_S128x128_S40x128_1_0_0_1_n_n : DotDims S40x128 S128x128 S40x128 where
  lhsContracting := [1]
  rhsContracting := [0]
  lhsNonContracting := [0]
  rhsNonContracting := [1]
  lhsBatch := []
  rhsBatch := []
  wf := dot_S40x128_S128x128_S40x128_1_0_0_1_n_n_wf

abbrev win0_0 : Pipeline.Window sig grid0 :=
  Pipeline.Window.ofSpec (Memref.whole main_arg0) S1x40x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x40x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x40x40x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x40x40x3x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x200x128 : Shape := ⟨3, ![4, 200, 128]⟩
abbrev S4x200x200x3 : Shape := ⟨4, ![4, 200, 200, 3]⟩
abbrev S256x128 : Shape := ⟨2, ![256, 128]⟩
abbrev S128 : Shape := ⟨1, ![128]⟩
abbrev S128x128 : Shape := ⟨2, ![128, 128]⟩
abbrev S4x200x1x128 : Shape := ⟨4, ![4, 200, 1, 128]⟩
abbrev S4x1x200x128 : Shape := ⟨4, ![4, 1, 200, 128]⟩
abbrev S4x200x200x128 : Shape := ⟨4, ![4, 200, 200, 128]⟩
abbrev S1x1x1x128 : Shape := ⟨4, ![1, 1, 1, 128]⟩
abbrev S4x200x200x1x128 : Shape := ⟨5, ![4, 200, 200, 1, 128]⟩
abbrev S4x200x200x3x1 : Shape := ⟨5, ![4, 200, 200, 3, 1]⟩
abbrev S4x200x200x3x128 : Shape := ⟨5, ![4, 200, 200, 3, 128]⟩

abbrev nBuf : Space → Nat
  | .hbm => 21
  | .vmem => 0
  | .smem => 0
  | _ => 0

abbrev bufTy : (tb : Table) → Fin (tcTables nBuf tb) → BufTy
  | .hbm, ⟨0, _⟩ => ⟨S4x200x128, .f32⟩
  | .hbm, ⟨1, _⟩ => ⟨S4x200x200x3, .f32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S4x200x128, .f32⟩
  | .hbm, ⟨6, _⟩ => ⟨S128x128, .f32⟩
  | .hbm, ⟨7, _⟩ => ⟨S4x200x128, .f32⟩
  | .hbm, ⟨8, _⟩ => ⟨S4x200x1x128, .f32⟩
  | .hbm, ⟨9, _⟩ => ⟨S4x1x200x128, .f32⟩
  | .hbm, ⟨10, _⟩ => ⟨S4x200x200x128, .f32⟩
  | .hbm, ⟨11, _⟩ => ⟨S4x200x200x128, .f32⟩
  | .hbm, ⟨12, _⟩ => ⟨S4x200x200x128, .f32⟩
  | .hbm, ⟨13, _⟩ => ⟨S1x1x1x128, .f32⟩
  | .hbm, ⟨14, _⟩ => ⟨S4x200x200x128, .f32⟩
  | .hbm, ⟨15, _⟩ => ⟨S4x200x200x128, .f32⟩
  | .hbm, ⟨16, _⟩ => ⟨S4x200x200x1x128, .f32⟩
  | .hbm, ⟨17, _⟩ => ⟨S4x200x200x3x1, .f32⟩
  | .hbm, ⟨18, _⟩ => ⟨S4x200x200x3x128, .f32⟩
  | .hbm, ⟨19, _⟩ => ⟨S4x200x200x3x128, .f32⟩
  | .hbm, ⟨20, _⟩ => ⟨S4x200x200x3x128, .f32⟩
  | _, _ => ⟨S4x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]

class Facts₀ : Prop where
  slices_S256x128_S128x128_0_0 : S256x128.Slices ![0, 0] S128x128
  slices_S256x128_S128x128_128_0 : S256x128.Slices ![128, 0] S128x128
  bcast_S4x200x128_S4x200x1x128_0_1_3 : S4x200x128.BroadcastsInDim S4x200x1x128 (![0, 1, 3] : Fin 3 → Fin S4x200x1x128.rank)
  bcast_S4x200x128_S4x1x200x128_0_2_3 : S4x200x128.BroadcastsInDim S4x1x200x128 (![0, 2, 3] : Fin 3 → Fin S4x1x200x128.rank)
  bcast_S4x200x1x128_S4x200x200x128_0_1_2_3 : S4x200x1x128.BroadcastsInDim S4x200x200x128 (![0, 1, 2, 3] : Fin 4 → Fin S4x200x200x128.rank)
  bcast_S4x1x200x128_S4x200x200x128_0_1_2_3 : S4x1x200x128.BroadcastsInDim S4x200x200x128 (![0, 1, 2, 3] : Fin 4 → Fin S4x200x200x128.rank)
  bcast_S128_S1x1x1x128_3 : S128.BroadcastsInDim S1x1x1x128 (![3] : Fin 1 → Fin S1x1x1x128.rank)
  bcast_S1x1x1x128_S4x200x200x128_0_1_2_3 : S1x1x1x128.BroadcastsInDim S4x200x200x128 (![0, 1, 2, 3] : Fin 4 → Fin S4x200x200x128.rank)
  bcast_S4x200x200x128_S4x200x200x1x128_0_1_2_4 : S4x200x200x128.BroadcastsInDim S4x200x200x1x128 (![0, 1, 2, 4] : Fin 4 → Fin S4x200x200x1x128.rank)
  bcast_S4x200x200x3_S4x200x200x3x1_0_1_2_3 : S4x200x200x3.BroadcastsInDim S4x200x200x3x1 (![0, 1, 2, 3] : Fin 4 → Fin S4x200x200x3x1.rank)
  bcast_S4x200x200x1x128_S4x200x200x3x128_0_1_2_3_4 : S4x200x200x1x128.BroadcastsInDim S4x200x200x3x128 (![0, 1, 2, 3, 4] : Fin 5 → Fin S4x200x200x3x128.rank)
  bcast_S4x200x200x3x1_S4x200x200x3x128_0_1_2_3_4 : S4x200x200x3x1.BroadcastsInDim S4x200x200x3x128 (![0, 1, 2, 3, 4] : Fin 5 → Fin S4x200x200x3x128.rank)
  dot_S4x200x128_S128x128_S4x200x128_2_0_01_1_n_n_wf : DotDims.WF S4x200x128 S128x128 S4x200x128 [2] [0] [0, 1] [1] [] []

variable [Facts₀]

def dot_S4x200x128_S128x128_S4x200x128_2_0_01_1_n_n : DotDims S4x200x128 S128x128 S4x200x128 where
  lhsContracting := [2]
  rhsContracting := [0]
  lhsNonContracting := [0, 1]
  rhsNonContracting := [1]
  lhsBatch := []
  rhsBatch := []
  wf := dot_S4x200x128_S128x128_S4x200x128_2_0_01_1_n_n_wf

class Facts : Prop extends Facts₀ where

variable [Facts]
-- ==== Proof.LibSharedLaunch.lean ====
/-
  The frame run of a one-region TensorCore program whose INPUT windows may read one array through several
  index maps, the kernel having no semaphore of its own and carrying nothing between grid points.

  The pipeline rule holds each window's array at a share of its own.  When two input windows stage blocks
  of ONE array, the buffer behind it, whole at the full share when the region is entered, is divided among
  them: this is the one entailment the caller supplies (`hsplit`: the distinct buffers behind the arrays,
  at the region-entry contents, yield every window's points-to at the share the proof data names).  All
  else is as for distinct arrays: the scoped rest is the region invariant, the unscoped buffers that are
  no window's array bypass the region and are read back unchanged, and every window's array ends at what
  the write-backs made of it (`FramePost`).
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section SharedFrame

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run when input windows may share an array.  The region invariant is the scoped rest alone
    (`hΦ`); the arrays' buffers at region entry are dealt to the windows by `hsplit`. -/
theorem θ_run_frame_shared
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hΦ : ∀ c t, (dats p c).Φ t = scopedRest (cfg).spec c) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl) V hmain hsplit
    (X := fun _ => (BI.emp : sProp 𝕄)) (Y := fun _ => (BI.emp : sProp 𝕄))
    (Z := fun c => unscopedRest (Ix := Unit) (Name := ℕ) (U := UR sig nD τ) (Lvl := ℕ) (cfg).spec c (V c))
    (hX := fun c => by
      iintro HU
      isplitr; · iempintro
      iexact HU)
    (hin := fun c => by
      rw [hΦ]
      iintro ⟨-, HR⟩
      iexact HR)
    (hout := fun c => by
      rw [hΦ]
      iintro HR
      isplitr; · iempintro
      iexact HR)
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => h c)

end SharedFrame

end Pipeline

end Idealize.ShloMosaic

end
-- ==== Proof.KFrame.lean ====
/-
  The frame of the pairwise-message kernel: on a 4 × 5 × 5 grid, point (b, i, j) stages rows 40·i … 40·i+39 and
  rows 40·j … 40·j+39 of batch b of the feature array (two windows on ONE array), the 40 × 40 × 3 block (b, i, j)
  of the distances, the whole weight matrix and the bias row, and writes back block (b, i, j) of the result.
  The body reads the five input blocks and stores the whole output block; it keeps nothing between points.

  Every weakly fair execution therefore terminates without a fault, each argument array ends as launched, and
  the result array ends as the write-backs left it: block (b, i, j) holding the body's value of the five input
  blocks at that point.  The two windows that read the feature array hold it at the two halves of the full
  share, which is all a reader needs.
-/
import proofs.«117475_j57062935495220_1_alg».proof.Proof.Gen.Kernel.Launch
import proofs.«117475_j57062935495220_1_alg».proof.Proof.Gen.Kernel.Skeleton
import proofs.«117475_j57062935495220_1_alg».proof.Proof.Gen.Kernel.Points
import proofs.«117475_j57062935495220_1_alg».proof.Proof.LibSharedLaunch
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- The TensorCore's buffers when the region is entered: the launch contents after the one host operation,
    the bias reshaped to a row. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes none of the four argument arrays. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: where it is not
    fetched its block index has not moved, and the body left the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

abbrev rX : Rect S1x40x128 := Rect.unit (s := S1x40x128) ![0, 0, 0] S1x40x128.size inb_S1x40x128_S1x40x128_0_0_0
abbrev rD : Rect S1x40x40x3 := Rect.unit (s := S1x40x40x3) ![0, 0, 0, 0] S1x40x40x3.size inb_S1x40x40x3_S1x40x40x3_0_0_0_0
abbrev rW : Rect S256x128 := Rect.unit (s := S256x128) ![0, 0] S256x128.size inb_S256x128_S256x128_0_0
abbrev rB : Rect S1x128 := Rect.unit (s := S1x128) ![0, 0] S1x128.size inb_S1x128_S1x128_0_0
abbrev rO : Rect S1x40x40x3x128 := Rect.unit (s := S1x40x40x3x128) ![0, 0, 0, 0, 0] S1x40x40x3x128.size inb_S1x40x40x3x128_S1x40x40x3x128_0_0_0_0_0

/-- The output block after the body, from the five input blocks: its one store, of the body's value. -/
def outBlk (xi xj : Vec F S1x40x128 .f32) (ds : Vec F S1x40x40x3 .f32) (wt : Vec F S256x128 .f32) (bs : Vec F S1x128 .f32) :
    Vec F S1x40x40x3x128 .f32 :=
  View.canon [⟨rO, k0_pay1 (View.ld xi rX) (View.ld xj rX) (View.ld wt rW) (View.ld bs rB) (View.ld ds rD)⟩]

/-- The store is of the whole block. -/
theorem coverO (p0 : Vec F S1x40x40x3x128 .f32) (y : S1x40x40x3x128.Idx) :
    ∃ pc ∈ ([⟨rO, p0⟩] : List (View.Piece (Elt F) S1x40x40x3x128 .f32)), y ∈ pc.1.set :=
  View.cover_of_tiled [⟨rO, p0⟩] S1x40x40x3x128.size (by rfl) y

/-! ## The body's triple -/

set_option maxHeartbeats 1000000 in
/-- The body on whole staging buffers, the inputs' at given contents and the output's at anything, returns the
    inputs' as they were and the output's at `outBlk` of the inputs'. -/
theorem sound_kernel (c : Dev nD) (E : Set ℕ) (i : grid0.Coords)
    (arg3 : Memref sig .tc .vmem S1x40x128 .f32) (harg3 : arg3.IsWhole) (arg4 : Memref sig .tc .vmem S1x40x128 .f32) (harg4 : arg4.IsWhole)
    (arg5 : Memref sig .tc .vmem S1x40x40x3 .f32) (harg5 : arg5.IsWhole) (arg6 : Memref sig .tc .vmem S256x128 .f32) (harg6 : arg6.IsWhole)
    (arg7 : Memref sig .tc .vmem S1x128 .f32) (harg7 : arg7.IsWhole) (arg8 : Memref sig .tc .vmem S1x40x40x3x128 .f32) (harg8 : arg8.IsWhole)
    (xi xj : Vec F S1x40x128 .f32) (ds : Vec F S1x40x40x3 .f32) (wt : Vec F S256x128 .f32) (bs : Vec F S1x128 .f32) (K : PUnit → sProp 𝕄) :
    iprop(owns (c : Thread nD τ) arg3 fullShare xi ∗ owns (c : Thread nD τ) arg4 fullShare xj ∗ owns (c : Thread nD τ) arg5 fullShare ds
        ∗ owns (c : Thread nD τ) arg6 fullShare wt ∗ owns (c : Thread nD τ) arg7 fullShare bs ∗ (∃ d, owns (c : Thread nD τ) arg8 fullShare d)
        ∗ (iprop(owns (c : Thread nD τ) arg3 fullShare xi ∗ owns (c : Thread nD τ) arg4 fullShare xj ∗ owns (c : Thread nD τ) arg5 fullShare ds
            ∗ owns (c : Thread nD τ) arg6 fullShare wt ∗ owns (c : Thread nD τ) arg7 fullShare bs
            ∗ owns (c : Thread nD τ) arg8 fullShare (outBlk xi xj ds wt bs)) -∗ K ⟨⟩))
      ⊢ wp frame (wpE (defs₀ (F := F)) Variants.none c none) E (cc0_kernel i arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverO _)

/-! ## The proof data -/

/-- On core `c`: the arrays as the region finds them; after the body at point `t` each input buffer at its
    block and the output buffer at `outBlk` of the five; the invariant the scoped rest; nothing owed; the
    feature array's two readers at the halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlk (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the input buffers hold their blocks, so the body's triple applies; the invariant
    and what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The feature array's buffer dealt to its two readers -/

/-- The five distinct buffers behind the six windows. -/
theorem arr_image : Finset.univ.image (Pipeline.arrRef spec0) = [main_arg0, main_arg1, main_arg2, main_v0, main_v1].toFinset := by decide

/-- The buffers behind the windows' arrays, one by one. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_arg1) ↦{fullShare} V' main_arg1)
          ∗ (((c : Thread nD τ).loc main_arg2) ↦{fullShare} V' main_arg2) ∗ (((c : Thread nD τ).loc main_v0) ↦{fullShare} V' main_v0)
          ∗ (((c : Thread nD τ).loc main_v1) ↦{fullShare} V' main_v1)) :=
  bigSep_eq_bigSepL_of_eq [main_arg0, main_arg1, main_arg2, main_v0, main_v1] arr_image (by decide) _

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  have hs (b : Ref sig .tc) : (View.whole b).set = Finset.univ := (Memref.isWhole_whole b).set_eq_univ
  rw [hs main_arg0, hs main_arg1, hs main_arg2, hs main_v0, hs main_v1,
    show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl, show (dats m 0 c).share 5 = fullShare from rfl]
  iintro ⟨H0, H1, H2, H3, H4⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  isplitl [H3]; · iexact H3
  iexact H4

/-! ## The run -/

set_option backward.isDefEq.respectTransparency.types false in
/-- From any memory with zero counters every weakly fair execution terminates without a fault; every window's array
    ends as the write-backs left it and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := hsplit m) (hΦ := fun _ _ => rfl)

/-- The same run read at the result array and the four arguments: the result is what the write-backs of all
    hundred points made of it; the arguments are as launched (three are read-only windows' arrays, the bias is
    touched by nothing in the region and the reshape before it only reads it). -/
theorem run_valued : θ_run defs (onTc (τ := τ) (main (F := F))) ⟨m, fun _ => 0, ρ⟩ (fun r => ∀ c : Dev nD,
      r.2.mem ((c.tc : Thread nD τ).loc main_v1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 5,
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).2 main_arg3 (Pipeline.mem_restRefs_of main_arg3 rfl (by decide))).trans (V_main_arg3 m c)⟩) (run_main m ρ)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_valued m ρ)

end Cert.Kernel.Hand

end
-- ==== Proof.KIFrame.lean ====
/-
  The frame of the pairwise-message kernel: on a 4 × 5 × 5 grid, point (b, i, j) stages rows 40·i … 40·i+39 and
  rows 40·j … 40·j+39 of batch b of the feature array (two windows on ONE array), the 40 × 40 × 3 block (b, i, j)
  of the distances, the whole weight matrix and the bias row, and writes back block (b, i, j) of the result.
  The body reads the five input blocks and stores the whole output block; it keeps nothing between points.

  Every weakly fair execution therefore terminates without a fault, each argument array ends as launched, and
  the result array ends as the write-backs left it: block (b, i, j) holding the body's value of the five input
  blocks at that point.  The two windows that read the feature array hold it at the two halves of the full
  share, which is all a reader needs.
-/
import proofs.«117475_j57062935495220_1_alg».proof.Proof.Gen.KernelIdeal.Launch
import proofs.«117475_j57062935495220_1_alg».proof.Proof.Gen.KernelIdeal.Skeleton
import proofs.«117475_j57062935495220_1_alg».proof.Proof.Gen.KernelIdeal.Points
import proofs.«117475_j57062935495220_1_alg».proof.Proof.LibSharedLaunch
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- The TensorCore's buffers when the region is entered: the launch contents after the one host operation,
    the bias reshaped to a row. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes none of the four argument arrays. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: where it is not
    fetched its block index has not moved, and the body left the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

abbrev rX : Rect S1x40x128 := Rect.unit (s := S1x40x128) ![0, 0, 0] S1x40x128.size inb_S1x40x128_S1x40x128_0_0_0
abbrev rD : Rect S1x40x40x3 := Rect.unit (s := S1x40x40x3) ![0, 0, 0, 0] S1x40x40x3.size inb_S1x40x40x3_S1x40x40x3_0_0_0_0
abbrev rW : Rect S256x128 := Rect.unit (s := S256x128) ![0, 0] S256x128.size inb_S256x128_S256x128_0_0
abbrev rB : Rect S1x128 := Rect.unit (s := S1x128) ![0, 0] S1x128.size inb_S1x128_S1x128_0_0
abbrev rO : Rect S1x40x40x3x128 := Rect.unit (s := S1x40x40x3x128) ![0, 0, 0, 0, 0] S1x40x40x3x128.size inb_S1x40x40x3x128_S1x40x40x3x128_0_0_0_0_0

/-- The output block after the body, from the five input blocks: its one store, of the body's value. -/
def outBlk (xi xj : Vec F S1x40x128 .f32) (ds : Vec F S1x40x40x3 .f32) (wt : Vec F S256x128 .f32) (bs : Vec F S1x128 .f32) :
    Vec F S1x40x40x3x128 .f32 :=
  View.canon [⟨rO, k0_pay1 (View.ld xi rX) (View.ld xj rX) (View.ld wt rW) (View.ld bs rB) (View.ld ds rD)⟩]

/-- The store is of the whole block. -/
theorem coverO (p0 : Vec F S1x40x40x3x128 .f32) (y : S1x40x40x3x128.Idx) :
    ∃ pc ∈ ([⟨rO, p0⟩] : List (View.Piece (Elt F) S1x40x40x3x128 .f32)), y ∈ pc.1.set :=
  View.cover_of_tiled [⟨rO, p0⟩] S1x40x40x3x128.size (by rfl) y

/-! ## The body's triple -/

set_option maxHeartbeats 1000000 in
/-- The body on whole staging buffers, the inputs' at given contents and the output's at anything, returns the
    inputs' as they were and the output's at `outBlk` of the inputs'. -/
theorem sound_kernel (c : Dev nD) (E : Set ℕ) (i : grid0.Coords)
    (arg3 : Memref sig .tc .vmem S1x40x128 .f32) (harg3 : arg3.IsWhole) (arg4 : Memref sig .tc .vmem S1x40x128 .f32) (harg4 : arg4.IsWhole)
    (arg5 : Memref sig .tc .vmem S1x40x40x3 .f32) (harg5 : arg5.IsWhole) (arg6 : Memref sig .tc .vmem S256x128 .f32) (harg6 : arg6.IsWhole)
    (arg7 : Memref sig .tc .vmem S1x128 .f32) (harg7 : arg7.IsWhole) (arg8 : Memref sig .tc .vmem S1x40x40x3x128 .f32) (harg8 : arg8.IsWhole)
    (xi xj : Vec F S1x40x128 .f32) (ds : Vec F S1x40x40x3 .f32) (wt : Vec F S256x128 .f32) (bs : Vec F S1x128 .f32) (K : PUnit → sProp 𝕄) :
    iprop(owns (c : Thread nD τ) arg3 fullShare xi ∗ owns (c : Thread nD τ) arg4 fullShare xj ∗ owns (c : Thread nD τ) arg5 fullShare ds
        ∗ owns (c : Thread nD τ) arg6 fullShare wt ∗ owns (c : Thread nD τ) arg7 fullShare bs ∗ (∃ d, owns (c : Thread nD τ) arg8 fullShare d)
        ∗ (iprop(owns (c : Thread nD τ) arg3 fullShare xi ∗ owns (c : Thread nD τ) arg4 fullShare xj ∗ owns (c : Thread nD τ) arg5 fullShare ds
            ∗ owns (c : Thread nD τ) arg6 fullShare wt ∗ owns (c : Thread nD τ) arg7 fullShare bs
            ∗ owns (c : Thread nD τ) arg8 fullShare (outBlk xi xj ds wt bs)) -∗ K ⟨⟩))
      ⊢ wp frame (wpE (defs₀ (F := F)) Variants.none c none) E (cc0_kernel i arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverO _)

/-! ## The proof data -/

/-- On core `c`: the arrays as the region finds them; after the body at point `t` each input buffer at its
    block and the output buffer at `outBlk` of the five; the invariant the scoped rest; nothing owed; the
    feature array's two readers at the halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlk (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the input buffers hold their blocks, so the body's triple applies; the invariant
    and what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The feature array's buffer dealt to its two readers -/

/-- The five distinct buffers behind the six windows. -/
theorem arr_image : Finset.univ.image (Pipeline.arrRef spec0) = [main_arg0, main_arg1, main_arg2, main_v0, main_v1].toFinset := by decide

/-- The buffers behind the windows' arrays, one by one. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_arg1) ↦{fullShare} V' main_arg1)
          ∗ (((c : Thread nD τ).loc main_arg2) ↦{fullShare} V' main_arg2) ∗ (((c : Thread nD τ).loc main_v0) ↦{fullShare} V' main_v0)
          ∗ (((c : Thread nD τ).loc main_v1) ↦{fullShare} V' main_v1)) :=
  bigSep_eq_bigSepL_of_eq [main_arg0, main_arg1, main_arg2, main_v0, main_v1] arr_image (by decide) _

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  have hs (b : Ref sig .tc) : (View.whole b).set = Finset.univ := (Memref.isWhole_whole b).set_eq_univ
  rw [hs main_arg0, hs main_arg1, hs main_arg2, hs main_v0, hs main_v1,
    show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl, show (dats m 0 c).share 5 = fullShare from rfl]
  iintro ⟨H0, H1, H2, H3, H4⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  isplitl [H3]; · iexact H3
  iexact H4

/-! ## The run -/

set_option backward.isDefEq.respectTransparency.types false in
/-- From any memory with zero counters every weakly fair execution terminates without a fault; every window's array
    ends as the write-backs left it and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := hsplit m) (hΦ := fun _ _ => rfl)

/-- The same run read at the result array and the four arguments: the result is what the write-backs of all
    hundred points made of it; the arguments are as launched (three are read-only windows' arrays, the bias is
    touched by nothing in the region and the reshape before it only reads it). -/
theorem run_valued : θ_run defs (onTc (τ := τ) (main (F := F))) ⟨m, fun _ => 0, ρ⟩ (fun r => ∀ c : Dev nD,
      r.2.mem ((c.tc : Thread nD τ).loc main_v1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 5,
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).2 main_arg3 (Pipeline.mem_restRefs_of main_arg3 rfl (by decide))).trans (V_main_arg3 m c)⟩) (run_main m ρ)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_valued m ρ)

end Cert.KernelIdeal.Hand

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.BodyValue.lean ====
/-
  The value the body stores, read at an index.

  With  xi, xj  the two 40-row blocks of the features,  W  the 256 × 128 weight matrix,  bs  the bias row and
  ds  the 40 × 40 × 3 block of distances, the stored block holds at (p, q, r, o)

      ( Σ_k xi[p, k] · W[k, o]  +  Σ_k xj[q, k] · W[128 + k, o]  +  bs[o] ) · ds[p, q, r].

  Every reshape of the body only adds or drops axes of extent one, so it keeps the row-major position; every
  broadcast repeats along an axis of extent one; the two slices take rows 0…127 and 128…255 of W; the two
  products into a zero accumulator are plain sums over k; the changes of float format are the identity.
-/
import proofs.«117475_j57062935495220_1_alg».proof.Proof.Gen.KernelIdeal.Skeleton
import proofs.«117475_j57062935495220_1_alg».proof.Proof.LibPlainDot
import Idealize.ShloMosaic.Lib.Pipeline.Value
import Idealize.ShloMosaic.Lib.ValueIdx
import Idealize.ShloMosaic.PureOps.Ideal.Laws

noncomputable section

namespace Cert.KernelIdeal.BodyValue

open Idealize.ShloMosaic Idealize.ShloMosaic.ValueIdx
open Cert.KernelIdeal Cert.KernelIdeal.Gen

variable {α : Type}

/-! ## Reshapes that add or drop axes of extent one keep the row-major position -/

theorem cast_1x40x128_40x128 (X : S1x40x128.Idx → α) (h : S1x40x128.ShapeCasts S40x128) (p : Fin 40) (k : Fin 128) :
    shapeCast S40x128 X h (ix2 p k) = X (ix3 0 p k) :=
  shapeCast_apply X h _ _ (by
    rw [Shape.rowMajor_val_three, Shape.rowMajor_val_two]
    show (0 * 40 + p.val) * 128 + k.val = p.val * 128 + k.val
    omega)

theorem cast_40x128_40x1x128 (X : S40x128.Idx → α) (h : S40x128.ShapeCasts S40x1x128) (p : Fin 40) (z : Fin 1) (o : Fin 128) :
    shapeCast S40x1x128 X h (ix3 p z o) = X (ix2 p o) :=
  shapeCast_apply X h _ _ (by
    rw [Shape.rowMajor_val_three, Shape.rowMajor_val_two]
    show p.val * 128 + o.val = (p.val * 1 + z.val) * 128 + o.val
    have := z.isLt
    omega)

theorem cast_40x128_1x40x128 (X : S40x128.Idx → α) (h : S40x128.ShapeCasts S1x40x128) (z : Fin 1) (q : Fin 40) (o : Fin 128) :
    shapeCast S1x40x128 X h (ix3 z q o) = X (ix2 q o) :=
  shapeCast_apply X h _ _ (by
    rw [Shape.rowMajor_val_three, Shape.rowMajor_val_two]
    show q.val * 128 + o.val = (z.val * 40 + q.val) * 128 + o.val
    have := z.isLt
    omega)

theorem cast_1x128_128 (X : S1x128.Idx → α) (h : S1x128.ShapeCasts S128) (o : Fin 128) :
    shapeCast S128 X h (ix1 o) = X (ix2 0 o) :=
  shapeCast_apply X h _ _ (by
    rw [Shape.rowMajor_val_two, Shape.rowMajor_val_one]
    show 0 * 128 + o.val = o.val
    omega)

theorem cast_128_1x128 (X : S128.Idx → α) (h : S128.ShapeCasts S1x128) (z : Fin 1) (o : Fin 128) :
    shapeCast S1x128 X h (ix2 z o) = X (ix1 o) :=
  shapeCast_apply X h _ _ (by
    rw [Shape.rowMajor_val_one, Shape.rowMajor_val_two]
    show o.val = z.val * 128 + o.val
    have := z.isLt
    omega)

theorem cast_128_1x1x128 (X : S128.Idx → α) (h : S128.ShapeCasts S1x1x128) (z z' : Fin 1) (o : Fin 128) :
    shapeCast S1x1x128 X h (ix3 z z' o) = X (ix1 o) :=
  shapeCast_apply X h _ _ (by
    rw [Shape.rowMajor_val_three, Shape.rowMajor_val_one]
    show o.val = (z.val * 1 + z'.val) * 128 + o.val
    have := z.isLt; have := z'.isLt
    omega)

theorem cast_1x40x40x3_40x40x3 (X : S1x40x40x3.Idx → α) (h : S1x40x40x3.ShapeCasts S40x40x3) (p q : Fin 40) (r : Fin 3) :
    shapeCast S40x40x3 X h (ix3 p q r) = X (ix4 0 p q r) :=
  shapeCast_apply X h _ _ (by
    rw [Shape.rowMajor_val_four, Shape.rowMajor_val_three]
    show ((0 * 40 + p.val) * 40 + q.val) * 3 + r.val = (p.val * 40 + q.val) * 3 + r.val
    omega)

theorem cast_40x40x128_40x40x1x128 (X : S40x40x128.Idx → α) (h : S40x40x128.ShapeCasts S40x40x1x128) (p q : Fin 40) (z : Fin 1) (o : Fin 128) :
    shapeCast S40x40x1x128 X h (ix4 p q z o) = X (ix3 p q o) :=
  shapeCast_apply X h _ _ (by
    rw [Shape.rowMajor_val_four, Shape.rowMajor_val_three]
    show (p.val * 40 + q.val) * 128 + o.val = ((p.val * 40 + q.val) * 1 + z.val) * 128 + o.val
    have := z.isLt
    omega)

theorem cast_40x40x3_40x40x3x1 (X : S40x40x3.Idx → α) (h : S40x40x3.ShapeCasts S40x40x3x1) (p q : Fin 40) (r : Fin 3) (z : Fin 1) :
    shapeCast S40x40x3x1 X h (ix4 p q r z) = X (ix3 p q r) :=
  shapeCast_apply X h _ _ (by
    rw [Shape.rowMajor_val_four, Shape.rowMajor_val_three]
    show (p.val * 40 + q.val) * 3 + r.val = ((p.val * 40 + q.val) * 3 + r.val) * 1 + z.val
    have := z.isLt
    omega)

theorem cast_40x40x3x128_1x40x40x3x128 (X : S40x40x3x128.Idx → α) (h : S40x40x3x128.ShapeCasts S1x40x40x3x128)
    (z : Fin 1) (p q : Fin 40) (r : Fin 3) (o : Fin 128) :
    shapeCast S1x40x40x3x128 X h (ix5 z p q r o) = X (ix4 p q r o) :=
  shapeCast_apply X h _ _ (by
    rw [Shape.rowMajor_val_five, Shape.rowMajor_val_four]
    show ((p.val * 40 + q.val) * 3 + r.val) * 128 + o.val = (((z.val * 40 + p.val) * 40 + q.val) * 3 + r.val) * 128 + o.val
    have := z.isLt
    omega)

/-! ## Broadcasts repeat along axes of extent one -/

theorem bc_40x1x128 (X : S40x1x128.Idx → α) (h : S40x1x128.Broadcasts S40x40x128) (p q : Fin 40) (o : Fin 128) :
    broadcastTo S40x40x128 X h (ix3 p q o) = X (ix3 p 0 o) :=
  broadcastTo_apply X h _ _ (fun a => by
    match a with
    | ⟨0, _⟩ => rfl
    | ⟨1, _⟩ => rfl
    | ⟨2, _⟩ => rfl)

theorem bc_1x40x128 (X : S1x40x128.Idx → α) (h : S1x40x128.Broadcasts S40x40x128) (p q : Fin 40) (o : Fin 128) :
    broadcastTo S40x40x128 X h (ix3 p q o) = X (ix3 0 q o) :=
  broadcastTo_apply X h _ _ (fun a => by
    match a with
    | ⟨0, _⟩ => rfl
    | ⟨1, _⟩ => rfl
    | ⟨2, _⟩ => rfl)

theorem bc_1x1x128 (X : S1x1x128.Idx → α) (h : S1x1x128.Broadcasts S40x40x128) (p q : Fin 40) (o : Fin 128) :
    broadcastTo S40x40x128 X h (ix3 p q o) = X (ix3 0 0 o) :=
  broadcastTo_apply X h _ _ (fun a => by
    match a with
    | ⟨0, _⟩ => rfl
    | ⟨1, _⟩ => rfl
    | ⟨2, _⟩ => rfl)

theorem bc_40x40x1x128 (X : S40x40x1x128.Idx → α) (h : S40x40x1x128.Broadcasts S40x40x3x128) (p q : Fin 40) (r : Fin 3) (o : Fin 128) :
    broadcastTo S40x40x3x128 X h (ix4 p q r o) = X (ix4 p q 0 o) :=
  broadcastTo_apply X h _ _ (fun a => by
    match a with
    | ⟨0, _⟩ => rfl
    | ⟨1, _⟩ => rfl
    | ⟨2, _⟩ => rfl
    | ⟨3, _⟩ => rfl)

theorem bc_40x40x3x1 (X : S40x40x3x1.Idx → α) (h : S40x40x3x1.Broadcasts S40x40x3x128) (p q : Fin 40) (r : Fin 3) (o : Fin 128) :
    broadcastTo S40x40x3x128 X h (ix4 p q r o) = X (ix4 p q r 0) :=
  broadcastTo_apply X h _ _ (fun a => by
    match a with
    | ⟨0, _⟩ => rfl
    | ⟨1, _⟩ => rfl
    | ⟨2, _⟩ => rfl
    | ⟨3, _⟩ => rfl)

/-! ## The two halves of the weight matrix -/

theorem rows_lo (W : S256x128.Idx → α) (h : S256x128.Slices ![0, 0] S128x128) (k o : Fin 128) :
    extractStridedSlice S128x128 ![0, 0] W h (ix2 k o) = W (ix2 ⟨k.val, by omega⟩ o) :=
  extractStridedSlice_apply _ W h _ _ (fun a => by
    match a with
    | ⟨0, _⟩ => exact (Nat.zero_add _).symm
    | ⟨1, _⟩ => exact (Nat.zero_add _).symm)

theorem rows_hi (W : S256x128.Idx → α) (h : S256x128.Slices ![128, 0] S128x128) (k o : Fin 128) :
    extractStridedSlice S128x128 ![128, 0] W h (ix2 k o) = W (ix2 ⟨128 + k.val, by omega⟩ o) :=
  extractStridedSlice_apply _ W h _ _ (fun a => by
    match a with
    | ⟨0, _⟩ => rfl
    | ⟨1, _⟩ => exact (Nat.zero_add _).symm)

/-! ## The product into a zero accumulator is the sum over k -/

theorem prod_apply (l : FVec Ideal S40x128 .bf16) (w : FVec Ideal S128x128 .bf16) (p : Fin 40) (o : Fin 128) :
    matmul dot_S40x128_S128x128_S40x128_1_0_0_1_n_n none l w (constant (F := Ideal) S40x128 .f32 0x00000000#32) (ix2 p o)
      = ∑ k : Fin 128, l (ix2 p k) * w (ix2 k o) :=
  Cert.Lib.PlainDot.matmul_zero_apply (M := 40) (K := 128) (N := 128) none l w p o

/-! ## The stored value at an index -/

theorem pay_apply (v0 v3 : Vec Ideal S1x40x128 .f32) (v6 : Vec Ideal S256x128 .f32) (v13 : Vec Ideal S1x128 .f32) (v24 : Vec Ideal S1x40x40x3 .f32)
    (p q : Fin 40) (r : Fin 3) (o : Fin 128) :
    k0_pay1 (F := Ideal) v0 v3 v6 v13 v24 (ix5 0 p q r o)
      = ((∑ k : Fin 128, v0 (ix3 0 p k) * v6 (ix2 ⟨k.val, by omega⟩ o))
          + (∑ k : Fin 128, v3 (ix3 0 q k) * v6 (ix2 ⟨128 + k.val, by omega⟩ o)) + v13 (ix2 0 o)) * v24 (ix4 0 p q r) := by
  unfold k0_pay1
  simp only [cast_40x40x3x128_1x40x40x3x128, mulf_apply, bc_40x40x1x128, bc_40x40x3x1, cast_40x40x128_40x40x1x128,
    cast_40x40x3_40x40x3x1, cast_1x40x40x3_40x40x3, addf_apply, bc_40x1x128, bc_1x40x128, bc_1x1x128,
    cast_40x128_40x1x128, cast_40x128_1x40x128, cast_128_1x1x128, cast_1x128_128, shapeCast_self,
    prod_apply, truncf_apply, cast_1x40x128_40x128, rows_lo, rows_hi]

end Cert.KernelIdeal.BodyValue

end
-- ==== Proof.Spec.lean ====
/-
  The pairwise message tensor, entry by entry, over the extended reals.

  For features x[b, a, f] (4 × 200 × 128), distances d[b, i, j, c] (4 × 200 × 200 × 3), a weight matrix W (256 × 128)
  whose upper and lower halves act on the first and the second atom of a pair, and a bias bs (128):

      out[b, i, j, c, o] = ( Σ_k x[b, i, k] · W[k, o]  +  Σ_k x[b, j, k] · W[128 + k, o]  +  bs[o] ) · d[b, i, j, c].
-/
import Idealize.ShloMosaic.Lib.ValueIdx
import Idealize.ShloMosaic.PureOps.Ideal

noncomputable section

namespace Cert.Spec

open Idealize.ShloMosaic Idealize.ShloMosaic.ValueIdx

/-- One entry of the message tensor. -/
def entry (x : FVec Ideal ⟨3, ![4, 200, 128]⟩ .f32) (d : FVec Ideal ⟨4, ![4, 200, 200, 3]⟩ .f32)
    (W : FVec Ideal ⟨2, ![256, 128]⟩ .f32) (bs : FVec Ideal ⟨1, ![128]⟩ .f32)
    (b : Fin 4) (i j : Fin 200) (c : Fin 3) (o : Fin 128) : Ideal .f32 :=
  ((∑ k : Fin 128, x (ix3 b i k) * W (ix2 ⟨k.val, by omega⟩ o))
    + (∑ k : Fin 128, x (ix3 b j k) * W (ix2 ⟨128 + k.val, by omega⟩ o)) + bs (ix1 o)) * d (ix4 b i j c)

/-- The message tensor. -/
def G (x : FVec Ideal ⟨3, ![4, 200, 128]⟩ .f32) (d : FVec Ideal ⟨4, ![4, 200, 200, 3]⟩ .f32)
    (W : FVec Ideal ⟨2, ![256, 128]⟩ .f32) (bs : FVec Ideal ⟨1, ![128]⟩ .f32) : FVec Ideal ⟨5, ![4, 200, 200, 3, 128]⟩ .f32 :=
  fun y => entry x d W bs (y 0) (y 1) (y 2) (y 3) (y 4)

theorem G_apply (x : FVec Ideal ⟨3, ![4, 200, 128]⟩ .f32) (d : FVec Ideal ⟨4, ![4, 200, 200, 3]⟩ .f32)
    (W : FVec Ideal ⟨2, ![256, 128]⟩ .f32) (bs : FVec Ideal ⟨1, ![128]⟩ .f32) (b : Fin 4) (i j : Fin 200) (c : Fin 3) (o : Fin 128) :
    G x d W bs (ix5 b i j c o) = entry x d W bs b i j c o := rfl

end Cert.Spec

end
-- ==== Proof.KIValue.lean ====
/-
  The result array after the run, as one function of the argument arrays.

  Point (b, i, j) of the grid writes back block (b, i, j) of the result: rows 40·i … 40·i+39 and columns
  40·j … 40·j+39 of batch b, all three channels and all 128 features.  What it writes is the body's value of the
  feature rows 40·i+p and 40·j+q of batch b, of the whole weight matrix and bias, and of the distances at
  (b, 40·i+p, 40·j+q, ·): that is the message tensor's entry at (b, 40·i+p, 40·j+q, c, o).  The hundred blocks
  tile the result, so the result array is the message tensor.
-/
import proofs.«117475_j57062935495220_1_alg».proof.Proof.KIFrame
import proofs.«117475_j57062935495220_1_alg».proof.Proof.BodyValue
import proofs.«117475_j57062935495220_1_alg».proof.Proof.Spec
import Idealize.ShloMosaic.Lib.Pipeline.Value
import Idealize.ShloMosaic.Lib.StableHlo.Run

set_option maxRecDepth 16384

noncomputable section

namespace Cert.KernelIdeal.HandValue

open Cert.KernelIdeal Cert.KernelIdeal.Gen Cert.KernelIdeal.Hand Cert.KernelIdeal.BodyValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- The printed index maps, decided over the grid: each input window follows the output window's block index on
    the axes they share, and sits at block 0 on every other axis. -/
theorem idx_facts : ∀ t : Fin cfg0.N,
    win0_0.index t (0 : Fin 3) = win0_5.index t (0 : Fin 5) ∧ win0_0.index t (1 : Fin 3) = win0_5.index t (1 : Fin 5) ∧ win0_0.index t (2 : Fin 3) = 0
    ∧ win0_1.index t (0 : Fin 3) = win0_5.index t (0 : Fin 5) ∧ win0_1.index t (1 : Fin 3) = win0_5.index t (2 : Fin 5) ∧ win0_1.index t (2 : Fin 3) = 0
    ∧ win0_2.index t (0 : Fin 4) = win0_5.index t (0 : Fin 5) ∧ win0_2.index t (1 : Fin 4) = win0_5.index t (1 : Fin 5)
    ∧ win0_2.index t (2 : Fin 4) = win0_5.index t (2 : Fin 5) ∧ win0_2.index t (3 : Fin 4) = 0
    ∧ win0_3.index t (0 : Fin 2) = 0 ∧ win0_3.index t (1 : Fin 2) = 0
    ∧ win0_4.index t (0 : Fin 2) = 0 ∧ win0_4.index t (1 : Fin 2) = 0
    ∧ win0_5.index t (3 : Fin 5) = 0 ∧ win0_5.index t (4 : Fin 5) = 0
    ∧ win0_5.index t (0 : Fin 5) ≤ 3 ∧ win0_5.index t (1 : Fin 5) ≤ 4 ∧ win0_5.index t (2 : Fin 5) ≤ 4 :=
  (by decide +kernel : ∀ t : Fin grid0.N, _)

/-- The bias row the region finds is the bias vector reshaped. -/
theorem V_bias (c : Dev nD) :
    (V m c main_v0 : S1x128.Idx → Elt Ideal .f32) = shapeCast S1x128 (m ((c : Thread nD τ).loc main_arg3)) shapeCasts_S128_S1x128 := by
  dsimp only [V, hostOps0]; after_results; rfl

/-- WHAT POINT `t` WRITES BACK is block `t` of the message tensor of the arrays as the region finds them. -/
theorem flushed_eq (c : Dev nD) (t : Fin cfg0.N) :
    (dats m 0 c).flushed 5 t = ((cfg0.win 5).blk t).view.read (Elt Ideal)
      (Cert.Spec.G (V m c main_arg0) (V m c main_arg1) (V m c main_arg2) (m ((c : Thread nD τ).loc main_arg3))) := by
  show (cfg0.win 5).cut (grid0.coords t) ((dats m 0 c).after 5 t) = _
  rw [after_5]
  unfold outBlk
  rw [View.canon_unit_zero hz5]
  simp only [View.ld_unit_zero (S := S1x40x128) hz3, View.ld_unit_zero (S := S1x40x40x3) hz4, View.ld_unit_zero (S := S256x128) hz2,
    View.ld_unit_zero (S := S1x128) hz2]
  funext y
  obtain ⟨z, p, q, r, o, rfl⟩ : ∃ (z : Fin 1) (p q : Fin 40) (r : Fin 3) (o : Fin 128), y = ix5 z p q r o :=
    ⟨y 0, y 1, y 2, y 3, y 4, eq_ix5 y⟩
  obtain rfl : z = 0 := Subsingleton.elim _ _
  show k0_pay1 (F := Ideal) (iblk m c 0 t) (iblk m c 1 t) (iblk m c 3 t) (iblk m c 4 t) (iblk m c 2 t) (ix5 0 p q r o)
    = Cert.Spec.G (V m c main_arg0) (V m c main_arg1) (V m c main_arg2) (m ((c : Thread nD τ).loc main_arg3))
        (((cfg0.win 5).blk t).view.emb (ix5 0 p q r o))
  rw [pay_apply]
  unfold Cert.Spec.G Cert.Spec.entry
  obtain ⟨e00, e01, e02, e10, e11, e12, e20, e21, e22, e23, e30, e31, e40, e41, e53, e54, -, -, -⟩ := idx_facts t
  have ha : ∀ k : Fin 128, iblk m c 0 t (ix3 0 p k)
      = V m c main_arg0 (ix3 (((cfg0.win 5).blk t).view.emb (ix5 0 p q r o) 0) (((cfg0.win 5).blk t).view.emb (ix5 0 p q r o) 1) k) := fun k => by
    show V m c main_arg0 (((cfg0.win 0).blk t).view.emb (ix3 0 p k)) = _
    refine congrArg _ (funext fun a => Fin.ext ?_)
    match a with
    | ⟨0, _⟩ => show win0_0.index t (0 : Fin 3) * 1 + 1 * 0 = win0_5.index t (0 : Fin 5) * 1 + 1 * 0; omega
    | ⟨1, _⟩ => show win0_0.index t (1 : Fin 3) * 40 + 1 * p.val = win0_5.index t (1 : Fin 5) * 40 + 1 * p.val; omega
    | ⟨2, _⟩ => show win0_0.index t (2 : Fin 3) * 128 + 1 * k.val = k.val; omega
  have hb : ∀ k : Fin 128, iblk m c 1 t (ix3 0 q k)
      = V m c main_arg0 (ix3 (((cfg0.win 5).blk t).view.emb (ix5 0 p q r o) 0) (((cfg0.win 5).blk t).view.emb (ix5 0 p q r o) 2) k) := fun k => by
    show V m c main_arg0 (((cfg0.win 1).blk t).view.emb (ix3 0 q k)) = _
    refine congrArg _ (funext fun a => Fin.ext ?_)
    match a with
    | ⟨0, _⟩ => show win0_1.index t (0 : Fin 3) * 1 + 1 * 0 = win0_5.index t (0 : Fin 5) * 1 + 1 * 0; omega
    | ⟨1, _⟩ => show win0_1.index t (1 : Fin 3) * 40 + 1 * q.val = win0_5.index t (2 : Fin 5) * 40 + 1 * q.val; omega
    | ⟨2, _⟩ => show win0_1.index t (2 : Fin 3) * 128 + 1 * k.val = k.val; omega
  have hw : ∀ (k' : Fin 256), iblk m c 3 t (ix2 k' o)
      = V m c main_arg2 (ix2 k' (((cfg0.win 5).blk t).view.emb (ix5 0 p q r o) 4)) := fun k' => by
    show V m c main_arg2 (((cfg0.win 3).blk t).view.emb (ix2 k' o)) = _
    refine congrArg _ (funext fun a => Fin.ext ?_)
    match a with
    | ⟨0, _⟩ => show win0_3.index t (0 : Fin 2) * 256 + 1 * k'.val = k'.val; omega
    | ⟨1, _⟩ => show win0_3.index t (1 : Fin 2) * 128 + 1 * o.val = win0_5.index t (4 : Fin 5) * 128 + 1 * o.val; omega
  have hd : iblk m c 2 t (ix4 0 p q r)
      = V m c main_arg1 (ix4 (((cfg0.win 5).blk t).view.emb (ix5 0 p q r o) 0) (((cfg0.win 5).blk t).view.emb (ix5 0 p q r o) 1)
          (((cfg0.win 5).blk t).view.emb (ix5 0 p q r o) 2) (((cfg0.win 5).blk t).view.emb (ix5 0 p q r o) 3)) := by
    show V m c main_arg1 (((cfg0.win 2).blk t).view.emb (ix4 0 p q r)) = _
    refine congrArg _ (funext fun a => Fin.ext ?_)
    match a with
    | ⟨0, _⟩ => show win0_2.index t (0 : Fin 4) * 1 + 1 * 0 = win0_5.index t (0 : Fin 5) * 1 + 1 * 0; omega
    | ⟨1, _⟩ => show win0_2.index t (1 : Fin 4) * 40 + 1 * p.val = win0_5.index t (1 : Fin 5) * 40 + 1 * p.val; omega
    | ⟨2, _⟩ => show win0_2.index t (2 : Fin 4) * 40 + 1 * q.val = win0_5.index t (2 : Fin 5) * 40 + 1 * q.val; omega
    | ⟨3, _⟩ => show win0_2.index t (3 : Fin 4) * 3 + 1 * r.val = win0_5.index t (3 : Fin 5) * 3 + 1 * r.val; omega
  have hs : iblk m c 4 t (ix2 0 o)
      = m ((c : Thread nD τ).loc main_arg3) (ix1 (((cfg0.win 5).blk t).view.emb (ix5 0 p q r o) 4)) := by
    show V m c main_v0 (((cfg0.win 4).blk t).view.emb (ix2 0 o)) = _
    have e : ((cfg0.win 4).blk t).view.emb (ix2 0 o) = ix2 0 (((cfg0.win 5).blk t).view.emb (ix5 0 p q r o) 4) :=
      funext fun a => Fin.ext (by
        match a with
        | ⟨0, _⟩ => show win0_4.index t (0 : Fin 2) * 1 + 1 * 0 = 0; omega
        | ⟨1, _⟩ => show win0_4.index t (1 : Fin 2) * 128 + 1 * o.val = win0_5.index t (4 : Fin 5) * 128 + 1 * o.val; omega)
    rw [e, V_bias]
    exact cast_128_1x128 _ _ 0 _
  simp only [ha, hb, hw, hd, hs]

/-! ## The hundred blocks tile the result -/

/-- An index of the result is in point `t`'s block iff each coordinate is in the block's range on its axis. -/
theorem mem_blk (t : Fin cfg0.N) (i : S4x200x200x3x128.Idx) :
    i ∈ ((cfg0.win 5).blk t).view.set ↔ ∀ a : Fin 5, win0_5.index t a * S1x40x40x3x128.size a ≤ (i a).val
      ∧ (i a).val < win0_5.index t a * S1x40x40x3x128.size a + S1x40x40x3x128.size a := by
  show i ∈ ((View.whole main_v1).slice (win0_5.rect t)).set ↔ _
  rw [View.set_slice_whole, Rect.mem_set_unit]
  exact Iff.rfl

/-- Every block index (b, i, j, 0, 0) with b < 4 and i, j < 5 is some grid point's. -/
theorem idx_onto : ∀ (q0 : Fin 4) (q1 : Fin 5) (q2 : Fin 5), ∃ t : Fin cfg0.N, win0_5.index t = ![q0.val, q1.val, q2.val, 0, 0] :=
  (by decide +kernel : ∀ (q0 : Fin 4) (q1 : Fin 5) (q2 : Fin 5), ∃ t : Fin grid0.N, win0_5.index t = ![q0.val, q1.val, q2.val, 0, 0])

/-- Index (b, i, j, c, o) lies in the block of the point with block index (b, i / 40, j / 40, 0, 0). -/
theorem cover (i : S4x200x200x3x128.Idx) :
    ∃ t : Fin cfg0.N, (cfg0.win 5).flush t = true ∧ i ∈ ((cfg0.win 5).blk t).view.set := by
  have h0 : (i 0).val < 4 := (i 0).isLt
  have h1 : (i 1).val < 200 := (i 1).isLt
  have h2 : (i 2).val < 200 := (i 2).isLt
  have h3 : (i 3).val < 3 := (i 3).isLt
  have h4 : (i 4).val < 128 := (i 4).isLt
  obtain ⟨t, ht⟩ := idx_onto ⟨(i 0).val, h0⟩ ⟨(i 1).val / 40, by omega⟩ ⟨(i 2).val / 40, by omega⟩
  have q0 : win0_5.index t (0 : Fin 5) = (i 0).val := congrFun ht 0
  have q1 : win0_5.index t (1 : Fin 5) = (i 1).val / 40 := congrFun ht 1
  have q2 : win0_5.index t (2 : Fin 5) = (i 2).val / 40 := congrFun ht 2
  have q3 : win0_5.index t (3 : Fin 5) = 0 := congrFun ht 3
  have q4 : win0_5.index t (4 : Fin 5) = 0 := congrFun ht 4
  refine ⟨t, flush0_5 t, ?_⟩
  rw [mem_blk]
  intro a
  match a with
  | ⟨0, _⟩ => show win0_5.index t (0 : Fin 5) * 1 ≤ (i 0).val ∧ (i 0).val < win0_5.index t (0 : Fin 5) * 1 + 1; omega
  | ⟨1, _⟩ => show win0_5.index t (1 : Fin 5) * 40 ≤ (i 1).val ∧ (i 1).val < win0_5.index t (1 : Fin 5) * 40 + 40; omega
  | ⟨2, _⟩ => show win0_5.index t (2 : Fin 5) * 40 ≤ (i 2).val ∧ (i 2).val < win0_5.index t (2 : Fin 5) * 40 + 40; omega
  | ⟨3, _⟩ => show win0_5.index t (3 : Fin 5) * 3 ≤ (i 3).val ∧ (i 3).val < win0_5.index t (3 : Fin 5) * 3 + 3; omega
  | ⟨4, _⟩ => show win0_5.index t (4 : Fin 5) * 128 ≤ (i 4).val ∧ (i 4).val < win0_5.index t (4 : Fin 5) * 128 + 128; omega

/-- THE RESULT ARRAY after the run is the message tensor of the arrays as the region finds them. -/
theorem final (c : Dev nD) : (dats m 0 c).arrAt 5 cfg0.N
    = Cert.Spec.G (V m c main_arg0) (V m c main_arg1) (V m c main_arg2) (m ((c : Thread nD τ).loc main_arg3)) :=
  (dats m 0 c).arrAt_eq_of_cover 5 _ (fun t _ => flushed_eq m c t) cover

/-! ## The run, read -/

/-- Every weakly fair execution terminates with the result array at the message tensor of the argument arrays as
    launched, and the arguments unchanged. -/
theorem run : θ_run defs (onTc (τ := τ) (main (F := Ideal))) ⟨m, fun _ => 0, ρ⟩ fun r => ∀ c : Dev nD,
      r.2.mem ((c.tc : Thread nD τ).loc main_v1)
        = Cert.Spec.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans ((final m c).trans (by rw [V_main_arg0, V_main_arg1, V_main_arg2])), (h c).2⟩)
    (run_valued m ρ)

end Cert.KernelIdeal.HandValue

end
-- ==== Proof.RefSide.lean ====
/-
  The reference computes the message tensor.

  Read one operation at a time, the reference's result at (b, i, j, c, o) is

      ( ( Σ_k x[b, i, k] · W[k, o]  +  Σ_k x[b, j, k] · W[128 + k, o] )  +  bs[o] ) · d[b, i, j, c] :

  the two contractions over the halves of W, each broadcast along the other atom's axis, their sum, the bias
  broadcast over everything but the feature axis, and the product with the distances broadcast along the
  feature axis.  Every layout operation only renames coordinates, so the composed index functions are the
  coordinate constructors of the specification.
-/
import proofs.«117475_j57062935495220_1_alg».proof.Proof.Gen.ReferenceIdeal.Read
import proofs.«117475_j57062935495220_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The reference's result, as the Read module stages it, is the message tensor of the four arguments. -/
theorem ref_eq_G (x0 : (⟨S4x200x128, .f32⟩ : BufTy).Contents (Elt Ideal)) (x1 : (⟨S4x200x200x3, .f32⟩ : BufTy).Contents (Elt Ideal))
    (x2 : (⟨S256x128, .f32⟩ : BufTy).Contents (Elt Ideal)) (x3 : (⟨S128, .f32⟩ : BufTy).Contents (Elt Ideal)) :
    val_main_v16 (F := Ideal) x0 x1 x2 x3 = Cert.Spec.G x0 x1 x2 x3 := by
  funext y
  obtain ⟨b, i, j, c, o, rfl⟩ : ∃ (b : Fin 4) (i j : Fin 200) (c : Fin 3) (o : Fin 128), y = ix5 b i j c o :=
    ⟨y 0, y 1, y 2, y 3, y 4, eq_ix5 y⟩
  rw [Cert.Spec.G_apply]
  unfold Cert.Spec.entry
  rw [val_main_v16_apply, val_main_v14_apply, val_main_v12_apply, val_main_v11_apply, val_main_v8_apply, val_main_v6_apply,
    val_main_v4_apply, val_main_v1_apply, val_main_v7_apply, val_main_v5_apply, val_main_v3_apply, val_main_v10_apply,
    val_main_v9_apply, val_main_v15_apply, val_main_v13_apply]
  simp only [val_main_v0_apply, val_main_v2_apply]
  have e1 : ∀ k : Fin 128, lidx_main_v1 (idx_main_v4 (idx_main_v6 (idx_main_v12 (idx_main_v14 (ix5 b i j c o))))) k = ix3 b i k :=
    fun k => funext fun a => Fin.ext (by match a with | ⟨0, _⟩ => rfl | ⟨1, _⟩ => rfl | ⟨2, _⟩ => rfl)
  have e2 : ∀ k : Fin 128, idx_main_v0 (ridx_main_v1 (idx_main_v4 (idx_main_v6 (idx_main_v12 (idx_main_v14 (ix5 b i j c o))))) k)
      = ix2 ⟨k.val, by omega⟩ o :=
    fun k => funext fun a => Fin.ext (by match a with | ⟨0, _⟩ => rfl | ⟨1, _⟩ => rfl)
  have e3 : ∀ k : Fin 128, lidx_main_v3 (idx_main_v5 (idx_main_v7 (idx_main_v12 (idx_main_v14 (ix5 b i j c o))))) k = ix3 b j k :=
    fun k => funext fun a => Fin.ext (by match a with | ⟨0, _⟩ => rfl | ⟨1, _⟩ => rfl | ⟨2, _⟩ => rfl)
  have e4 : ∀ k : Fin 128, idx_main_v2 (ridx_main_v3 (idx_main_v5 (idx_main_v7 (idx_main_v12 (idx_main_v14 (ix5 b i j c o))))) k)
      = ix2 ⟨128 + k.val, by omega⟩ o :=
    fun k => funext fun a => Fin.ext (by
      match a with
      | ⟨0, _⟩ => first | rfl | (show _ = 128 + k.val; simp only []; omega)
      | ⟨1, _⟩ => rfl)
  have e5 : idx_main_v9 (idx_main_v10 (idx_main_v12 (idx_main_v14 (ix5 b i j c o)))) = ix1 o :=
    funext fun a => Fin.ext (by match a with | ⟨0, _⟩ => rfl)
  have e6 : idx_main_v13 (idx_main_v15 (ix5 b i j c o)) = ix4 b i j c :=
    funext fun a => Fin.ext (by match a with | ⟨0, _⟩ => rfl | ⟨1, _⟩ => rfl | ⟨2, _⟩ => rfl | ⟨3, _⟩ => rfl)
  simp only [e1, e2, e3, e4, e5, e6]
  rfl

end Cert.ReferenceIdeal.RefValue

end
-- ==== Proof.lean ====
/-
  The pairwise-message kernel against its reference, over the extended reals.

  Both programs compute, from features x (4 × 200 × 128), distances d (4 × 200 × 200 × 3), a weight matrix
  W (256 × 128) and a bias bs (128),

      out[b, i, j, c, o] = ( Σ_k x[b, i, k] · W[k, o]  +  Σ_k x[b, j, k] · W[128 + k, o]  +  bs[o] ) · d[b, i, j, c].

  The kernel does it block by block on a 4 × 5 × 5 grid: point (b, i, j) multiplies two 40-row blocks of the
  features by the two halves of W (a product into a zero accumulator is the plain sum over k; the changes of
  float format are the identity over the reals), adds them across the two atom axes, adds the bias, multiplies by
  the 40 × 40 × 3 block of distances, and writes back block (b, i, j); the hundred blocks tile the result.  The
  reference contracts the whole feature array with each half of W and broadcasts.  The two sums range over the
  same index set with the same terms and the additions and the product are grouped alike, so no law of the
  extended reals beyond equality of the terms is needed, and finiteness of the inputs is not used.

  Frames: each program terminates without a fault and leaves its four arguments as launched; the kernel's two
  feature windows read one array, which they hold at the two halves of the full share.  The idealization
  rewrote no operation, so there is nothing to preserve.
-/
import proofs.«117475_j57062935495220_1_alg».proof.Defs
import proofs.«117475_j57062935495220_1_alg».proof.Proof.Gen.Kernel
import proofs.«117475_j57062935495220_1_alg».proof.Proof.Gen.KernelIdeal
import proofs.«117475_j57062935495220_1_alg».proof.Proof.Gen.ReferenceIdeal
import proofs.«117475_j57062935495220_1_alg».proof.Proof.Gen.Pre_finite_inputs
import proofs.«117475_j57062935495220_1_alg».proof.Proof.KFrame
import proofs.«117475_j57062935495220_1_alg».proof.Proof.KIValue
import proofs.«117475_j57062935495220_1_alg».proof.Proof.RefSide

noncomputable section

namespace Cert.Proof

open Idealize.ShloMosaic Idealize.ShloMosaic.TcCoe Idealize.SL.Sem

theorem frame_kernel : Cert.frame_Kernel := fun m ρ _ => Cert.Kernel.Hand.frame m ρ

theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the message tensor of the same four arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.HandValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, Cert.ReferenceIdeal.RefValue.ref_eq_G,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
